-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_

variable [Facts]

def fn {F : FTy → Type} [FloatOps F] (main_arg0 : FVec F S10000x128 .f32) (main_arg1 : FVec F S10000x10000 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  main_v8
-- ==== Kernel.lean ====
abbrev S10000x128 : Shape := ⟨2, ![10000, 128]⟩
abbrev S10000x10000 : Shape := ⟨2, ![10000, 10000]⟩
abbrev S400x10000 : Shape := ⟨2, ![400, 10000]⟩
abbrev S400x128 : Shape := ⟨2, ![400, 128]⟩

abbrev nBuf : Space → Nat
  | .hbm => 4
  | .vmem => 12
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x128, .f32⟩
  | .hbm, ⟨3, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S400x128, .f32⟩
  | .local _ .vmem, ⟨4, _⟩ => ⟨S400x128, .f32⟩
  | .local _ .vmem, ⟨5, _⟩ => ⟨S400x128, .f32⟩
  | .local _ .vmem, ⟨6, _⟩ => ⟨S400x128, .f32⟩
  | .local _ .vmem, ⟨7, _⟩ => ⟨S400x10000, .f32⟩
  | .local _ .vmem, ⟨8, _⟩ => ⟨S400x10000, .f32⟩
  | .local _ .vmem, ⟨9, _⟩ => ⟨S10000x128, .f32⟩
  | .local _ .vmem, ⟨10, _⟩ => ⟨S400x128, .f32⟩
  | .local _ .vmem, ⟨11, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S400x128_S400x128_0_0 : ∀ a, (![0, 0] : Fin 2 → Nat) a + S400x128.size a ≤ S400x128.size a
  h_S400x128 : 0 < S400x128.numel
  shapeCasts_S10000x128_S10000x128 : S10000x128.ShapeCasts S10000x128
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S10000x128.size a
  hwx0_2 : ∀ i : grid0.Coords, EltTy.bits .f32 = 32 ∨ (Rect.block (s := S10000x128) S400x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S400x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩

abbrev nBuf : Space → Nat
  | .hbm => 5
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x128, .f32⟩
  | .hbm, ⟨3, _⟩ => ⟨S10000x128, .f32⟩
  | .hbm, ⟨4, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  dot_S10000x10000_S10000x128_S10000x128_1_0_0_1_n_n_wf : DotDims.WF S10000x10000 S10000x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelPass1.lean ====
/-
  First pass, y = A·x + x, one block of 400 rows per grid point: what each window's staging buffer holds when the
  body runs, what the body leaves in the output window's buffer, and the body's triple, at any contents `V` of the
  core's arrays on entry. The array x is read through two windows (whole, and 400 rows at a time), so the proof
  data hold it at two half shares.
-/
import proofs.«149631_g16604343566779_cont_sun_m_776_3_alg».proof.Proof.Gen.Kernel.Launch
import proofs.«149631_g16604343566779_cont_sun_m_776_3_alg».proof.Proof.Gen.Kernel.Skeleton
import proofs.«149631_g16604343566779_cont_sun_m_776_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The first pass: blocks -/

/-- Window `w`'s block at point `t`: the rows the point works on, read off the window's array as entered. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 400 rows of A at a point are in the staging buffer when the body runs, fetched at that point or kept. -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
/-- All of x likewise: fetched once, then kept. -/
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
/-- The point's 400 rows of x likewise. -/
theorem found0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-! ## The first pass: the body -/

abbrev rA : Rect S400x10000 := Rect.unit (s := S400x10000) ![0, 0] S400x10000.size inb_S400x10000_S400x10000_0_0
abbrev rX : Rect S10000x128 := Rect.unit (s := S10000x128) ![0, 0] S10000x128.size inb_S10000x128_S10000x128_0_0
abbrev rB : Rect S400x128 := Rect.unit (s := S400x128) ![0, 0] S400x128.size inb_S400x128_S400x128_0_0

/-- What the first pass leaves in its output buffer: the 400 rows of A times x, plus the 400 rows of x, stored whole. -/
def out0 (a : Vec F S400x10000 .f32) (xs : Vec F S10000x128 .f32) (xb : Vec F S400x128 .f32) : Vec F S400x128 .f32 :=
  View.canon [⟨rB, k0_pay1 (View.ld a rA) (View.ld xs rX) (View.ld xb rB)⟩]

/-- The one store covers the buffer. -/
theorem cover0 (p0 : Vec F S400x128 .f32) (y : S400x128.Idx) :
    ∃ pc ∈ ([⟨rB, p0⟩] : List (View.Piece (Elt F) S400x128 .f32)), y ∈ pc.1.set :=
  View.cover_of_tiled [⟨rB, p0⟩] S400x128.size (by rfl) y

set_option maxHeartbeats 1000000 in
/-- The body of the first pass on whole staging buffers: the three inputs are read and kept, the output buffer (read once,
    the value unused) ends at `out0` of the inputs. -/
theorem sound_kernel0 (c : Dev nD) (E : Set ℕ) (i : grid0.Coords)
    (arg1 : Memref sig .tc .vmem S400x10000 .f32) (harg1 : arg1.IsWhole) (arg2 : Memref sig .tc .vmem S10000x128 .f32) (harg2 : arg2.IsWhole)
    (arg3 : Memref sig .tc .vmem S400x128 .f32) (harg3 : arg3.IsWhole) (arg4 : Memref sig .tc .vmem S400x128 .f32) (harg4 : arg4.IsWhole)
    (a : Vec F S400x10000 .f32) (xs : Vec F S10000x128 .f32) (xb : Vec F S400x128 .f32) (K : PUnit → sProp 𝕄) :
    iprop(owns (c : Thread nD τ) arg1 fullShare a ∗ owns (c : Thread nD τ) arg2 fullShare xs ∗ owns (c : Thread nD τ) arg3 fullShare xb
        ∗ (∃ d, owns (c : Thread nD τ) arg4 fullShare d)
        ∗ (iprop(owns (c : Thread nD τ) arg1 fullShare a ∗ owns (c : Thread nD τ) arg2 fullShare xs ∗ owns (c : Thread nD τ) arg3 fullShare xb
            ∗ owns (c : Thread nD τ) arg4 fullShare (out0 a xs xb)) -∗ K ⟨⟩))
      ⊢ wp frame (wpE (defs₀ (F := F)) Variants.none c none) E (cc0__pass1_kernel i arg1 harg1 arg2 harg2 arg3 harg3 arg4 harg4) K := by
  simp only [cc0__pass1_kernel_eq_skeleton]; unfold cc0__pass1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-! ## The first pass: proof data -/

/-- The proof data of the first pass on core `c`: the arrays as entered; after the body each input buffer still at
    its block and the output buffer at `out0` of the three input blocks; the scoped rest and the generator register
    untouched; nothing owed. A is held whole; x, read through two windows, at one half share each. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => out0 (blk0 V c 0 t) (blk0 V c 1 t) (blk0 V c 2 t)
  Φ _ := Pipeline.ΦA spec0 c
  q w := match w with
    | ⟨0, _⟩ => fullShare
    | ⟨1, _⟩ => fullShare.left
    | ⟨2, _⟩ => fullShare.right
    | ⟨3, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) :
    (dat0 V c).after 3 t = out0 (blk0 V c 0 t) (blk0 V c 1 t) (blk0 V c 2 t) := by dsimp only [dat0]

theorem before0_0 (c : Dev nD) (t : Fin cfg0.N) (d) : (dat0 V c).before 0 t d = blk0 V c 0 t :=
  found0_0 V (dat0 V c) (A_eq0 V c 0) (after0_0 V c) t d
theorem before0_1 (c : Dev nD) (t : Fin cfg0.N) (d) : (dat0 V c).before 1 t d = blk0 V c 1 t :=
  found0_1 V (dat0 V c) (A_eq0 V c 1) (after0_1 V c) t d
theorem before0_2 (c : Dev nD) (t : Fin cfg0.N) (d) : (dat0 V c).before 2 t d = blk0 V c 2 t :=
  found0_2 V (dat0 V c) (A_eq0 V c 2) (after0_2 V c) t d

/-! ## The first pass: the body obligation -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the first pass, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KernelPass2.lean ====
/-
  Second pass, out = A·y, one block of 400 rows per grid point: what each window's staging buffer holds when the body
  runs, what the body leaves in the output window's buffer, and the body's triple, at any contents `V` of the core's
  arrays on entry.
-/
import proofs.«149631_g16604343566779_cont_sun_m_776_3_alg».proof.Proof.Gen.Kernel.Launch
import proofs.«149631_g16604343566779_cont_sun_m_776_3_alg».proof.Proof.Gen.Kernel.Skeleton
import proofs.«149631_g16604343566779_cont_sun_m_776_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The second pass: blocks -/

/-- Window `w`'s block at point `t`, read off the window's array as entered. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The 400 rows of A at a point are in the staging buffer when the body runs, fetched at that point or kept. -/
theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
/-- All of y likewise: fetched once, then kept. -/
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## The second pass: the body -/

abbrev sA : Rect S400x10000 := Rect.unit (s := S400x10000) ![0, 0] S400x10000.size inb_S400x10000_S400x10000_0_0
abbrev sY : Rect S10000x128 := Rect.unit (s := S10000x128) ![0, 0] S10000x128.size inb_S10000x128_S10000x128_0_0
abbrev sB : Rect S400x128 := Rect.unit (s := S400x128) ![0, 0] S400x128.size inb_S400x128_S400x128_0_0

/-- What the second pass leaves in its output buffer: the 400 rows of A times y, stored whole. -/
def out1 (a : Vec F S400x10000 .f32) (ys : Vec F S10000x128 .f32) : Vec F S400x128 .f32 :=
  View.canon [⟨sB, k1_pay1 (View.ld a sA) (View.ld ys sY)⟩]

/-- The one store covers the buffer. -/
theorem cover1 (p0 : Vec F S400x128 .f32) (y : S400x128.Idx) :
    ∃ pc ∈ ([⟨sB, p0⟩] : List (View.Piece (Elt F) S400x128 .f32)), y ∈ pc.1.set :=
  View.cover_of_tiled [⟨sB, p0⟩] S400x128.size (by rfl) y

set_option maxHeartbeats 1000000 in
/-- The body of the second pass on whole staging buffers: the two inputs are read and kept, the output buffer (read once,
    the value unused) ends at `out1` of the inputs. -/
theorem sound_kernel1 (c : Dev nD) (E : Set ℕ) (i : grid1.Coords)
    (arg1 : Memref sig .tc .vmem S400x10000 .f32) (harg1 : arg1.IsWhole) (arg2 : Memref sig .tc .vmem S10000x128 .f32) (harg2 : arg2.IsWhole)
    (arg3 : Memref sig .tc .vmem S400x128 .f32) (harg3 : arg3.IsWhole)
    (a : Vec F S400x10000 .f32) (ys : Vec F S10000x128 .f32) (K : PUnit → sProp 𝕄) :
    iprop(owns (c : Thread nD τ) arg1 fullShare a ∗ owns (c : Thread nD τ) arg2 fullShare ys
        ∗ (∃ d, owns (c : Thread nD τ) arg3 fullShare d)
        ∗ (iprop(owns (c : Thread nD τ) arg1 fullShare a ∗ owns (c : Thread nD τ) arg2 fullShare ys
            ∗ owns (c : Thread nD τ) arg3 fullShare (out1 a ys)) -∗ K ⟨⟩))
      ⊢ wp frame (wpE (defs₀ (F := F)) Variants.none c none) E (cc1__pass2_kernel i arg1 harg1 arg2 harg2 arg3 harg3) K := by
  simp only [cc1__pass2_kernel_eq_skeleton]; unfold cc1__pass2_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-! ## The second pass: proof data -/

/-- The proof data of the second pass on core `c`: the arrays as entered; after the body each input buffer still at
    its block and the output buffer at `out1` of the two input blocks; the scoped rest and the generator register
    untouched; nothing owed; every array held whole. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => out1 (blk1 V c 0 t) (blk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) :
    (dat1 V c).after 2 t = out1 (blk1 V c 0 t) (blk1 V c 1 t) := by dsimp only [dat1]

theorem before1_0 (c : Dev nD) (t : Fin cfg1.N) (d) : (dat1 V c).before 0 t d = blk1 V c 0 t :=
  found1_0 V (dat1 V c) (A_eq1 V c 0) (after1_0 V c) t d
theorem before1_1 (c : Dev nD) (t : Fin cfg1.N) (d) : (dat1 V c).before 1 t d = blk1 V c 1 t :=
  found1_1 V (dat1 V c) (A_eq1 V c 1) (after1_1 V c) t d

/-! ## The second pass: the body obligation -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the second pass, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KernelRun.lean ====
/-
  The whole program at either instance: the first pass writes y = A·x + x into its own array, the second pass
  writes A·y into the result. Each core's arrays are tracked from launch to return: at launch they hold the launch
  memory; after the first pass the array of y holds what that pass's write-backs leave and nothing else has changed;
  after the second pass the result array holds what its write-backs leave. The array x is read by two windows of the
  first pass, so on entry its full share is cut in two halves and on exit the halves, both still at x, are joined.
-/
import proofs.«149631_g16604343566779_cont_sun_m_776_3_alg».proof.Proof.Gen.Kernel.Launch
import proofs.«149631_g16604343566779_cont_sun_m_776_3_alg».proof.Proof.Gen.Kernel.Skeleton
import proofs.«149631_g16604343566779_cont_sun_m_776_3_alg».proof.Proof.Gen.Kernel.Points
import proofs.«149631_g16604343566779_cont_sun_m_776_3_alg».proof.Proof.KernelPass1
import proofs.«149631_g16604343566779_cont_sun_m_776_3_alg».proof.Proof.KernelPass2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The first pass's arrays, one by one -/

section Shared

variable (V : (c : Dev nD) → (b : Ref sig .tc) → Buf (Elt F) ((c : Thread nD τ).loc b))

theorem share0_0 (c : Dev nD) : (dat0 V c).share 0 = fullShare := rfl
theorem share0_1 (c : Dev nD) : (dat0 V c).share 1 = fullShare.left := rfl
theorem share0_2 (c : Dev nD) : (dat0 V c).share 2 = fullShare.right := rfl
theorem share0_3 (c : Dev nD) : (dat0 V c).share 3 = fullShare := rfl

/-- The first pass's arrays one by one: A whole, x twice at half shares, y whole. -/
theorem arrays0_eq (c : Dev nD) (Fn : (w : Fin cfg0.W) → Buf (Elt F) (((cfg0.win w).arr.view.loc (c : Thread nD τ)))) :
    ((dat0 V c).arrays Fn : sProp 𝕄)
      = iprop((((c : Thread nD τ).loc main_arg1) ↦{fullShare} Fn 0) ∗ (((c : Thread nD τ).loc main_arg0) ↦{fullShare.left} Fn 1)
          ∗ (((c : Thread nD τ).loc main_arg0) ↦{fullShare.right} Fn 2) ∗ (((c : Thread nD τ).loc main_v0) ↦{fullShare} Fn 3)) := by
  unfold Dat.arrays
  rw [bigSep_W0, (arr_whole0 0).set_eq_univ, (arr_whole0 1).set_eq_univ, (arr_whole0 3).set_eq_univ,
    share0_0, share0_1, share0_2, share0_3]

/-- The three distinct buffers behind the first pass's four windows, one by one. -/
theorem arrBufs0_eq (c : Dev nD) (U : (b : Ref sig .tc) → Buf (Elt F) ((c : Thread nD τ).loc b)) :
    (Pipeline.arrBufs (Ix := Unit) (Name := ℕ) (U := UR sig nD τ) (Lvl := ℕ) spec0 c U : sProp 𝕄)
      = iprop((((c : Thread nD τ).loc main_arg1) ↦{fullShare} U main_arg1) ∗ (((c : Thread nD τ).loc main_arg0) ↦{fullShare} U main_arg0)
          ∗ (((c : Thread nD τ).loc main_v0) ↦{fullShare} U main_v0)) := by
  unfold Pipeline.arrBufs
  exact bigSep_eq_bigSepL_of_eq [main_arg1, main_arg0, main_v0] (by decide) (by decide) _

/-- ENTRY of the first pass: the core's arrays at `U` are the pass's arrays at the proof data's entry contents, x cut
    into its two half shares, and the one array the pass does not touch. -/
theorem split0 (c : Dev nD) :
    (unscopedBufs c (V c) : sProp 𝕄) ⊢ iprop((dat0 V c).arrays ((dat0 V c).arrAt · 0) ∗ Pipeline.unscopedRest spec0 c (V c)) := by
  have h : (unscopedBufs c (V c) : sProp 𝕄) = iprop((Pipeline.arrBufs spec0 c (V c) : sProp 𝕄) ∗ Pipeline.unscopedRest spec0 c (V c)) :=
    Pipeline.unscopedBufs_split₀ (Ix := Unit) (Name := ℕ) (U := UR sig nD τ) (Lvl := ℕ) cfgs 0 winFacts₀0.arr_unscoped c (V c)
  rw [h, arrBufs0_eq, arrays0_eq]
  iintro ⟨⟨HA, Hx, Hy⟩, Hr⟩
  isplitr [Hr]; swap; · iexact Hr
  ihave Hx' := (pointsTo_share (PosShare.mem_left_op_right fullShare)).1 $$ Hx
  icases Hx' with ⟨Hx1, Hx2⟩
  isplitl [HA]; · iexact HA
  isplitl [Hx1]; · iexact Hx1
  isplitl [Hx2]; · iexact Hx2
  iexact Hy

/-- EXIT of the first pass: its arrays at final contents `Fn` whose two readings of x agree, and the untouched array,
    are the core's arrays at any contents `U'` that has A, x and y at `Fn` and agrees with `V` on the untouched one. -/
theorem join0 (c : Dev nD) (U' : (b : Ref sig .tc) → Buf (Elt F) ((c : Thread nD τ).loc b))
    (Fn : (w : Fin cfg0.W) → Buf (Elt F) (((cfg0.win w).arr.view.loc (c : Thread nD τ))))
    (h0 : Fn 0 = U' main_arg1) (h1 : Fn 1 = U' main_arg0) (h2 : Fn 2 = U' main_arg0) (h3 : Fn 3 = U' main_v0)
    (hr : U' main_v1 = V c main_v1) :
    iprop((dat0 V c).arrays Fn ∗ Pipeline.unscopedRest spec0 c (V c)) ⊢ (unscopedBufs c U' : sProp 𝕄) := by
  have h : (unscopedBufs c U' : sProp 𝕄) = iprop((Pipeline.arrBufs spec0 c U' : sProp 𝕄) ∗ Pipeline.unscopedRest spec0 c U') :=
    Pipeline.unscopedBufs_split₀ (Ix := Unit) (Name := ℕ) (U := UR sig nD τ) (Lvl := ℕ) cfgs 0 winFacts₀0.arr_unscoped c U'
  rw [h, arrBufs0_eq, arrays0_eq, unscopedRest0_eq, unscopedRest0_eq, h0, h1, h2, h3, hr]
  iintro ⟨⟨HA, Hx1, Hx2, Hy⟩, Hr⟩
  isplitr [Hr]; swap; · iexact Hr
  isplitl [HA]; · iexact HA
  isplitr [Hy]; swap; · iexact Hy
  iapply (pointsTo_share (PosShare.mem_left_op_right fullShare)).2
  isplitl [Hx1]; · iexact Hx1
  iexact Hx2

end Shared

/-! ## The arrays from launch to return -/

variable (m : (ℓ : Loc nD τ sig) → Buf (Elt F) ℓ) (ρ : Dev nD → PrngReg)

/-- Core `c`'s arrays at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- The array y as the first pass's write-backs leave it. -/
def yArr (c : Dev nD) : Buf (Elt F) ((c : Thread nD τ).loc main_v0) := (dat0 (V0 m ρ) c).arrAt 3 cfg0.N

/-- After the first pass: y written, everything else as launched. -/
def W1 (c : Dev nD) : Valuation τ sig (Elt F) := Function.update (W0 m ρ c) (Proc.devRef .tc main_v0) (yArr m ρ c)
abbrev V1 : (c : Dev nD) → (b : Ref sig .tc) → Buf (Elt F) ((c : Thread nD τ).loc b) := fun c b => W1 m ρ c b

theorem W1_main_v0 (c : Dev nD) : W1 m ρ c (Proc.devRef .tc main_v0) = yArr m ρ c := by
  unfold W1; exact Function.update_self ..
theorem W1_of_ne (c : Dev nD) (b : Ref sig .tc) (hb : b ≠ main_v0) : W1 m ρ c (Proc.devRef .tc b) = W0 m ρ c (Proc.devRef .tc b) := by
  unfold W1; exact Function.update_of_ne (StableHlo.devRef_ne_of_ne hb) ..

/-- The result array as the second pass's write-backs leave it. -/
def oArr (c : Dev nD) : Buf (Elt F) ((c : Thread nD τ).loc main_v1) := (dat1 (V1 m ρ) c).arrAt 2 cfg1.N

/-- After the second pass: the result written, everything else as the first pass left it. -/
def W2 (c : Dev nD) : Valuation τ sig (Elt F) := Function.update (W1 m ρ c) (Proc.devRef .tc main_v1) (oArr m ρ c)
abbrev V2 : (c : Dev nD) → (b : Ref sig .tc) → Buf (Elt F) ((c : Thread nD τ).loc b) := fun c b => W2 m ρ c b

theorem W2_main_v1 (c : Dev nD) : W2 m ρ c (Proc.devRef .tc main_v1) = oArr m ρ c := by
  unfold W2; exact Function.update_self ..
theorem W2_of_ne (c : Dev nD) (b : Ref sig .tc) (hb : b ≠ main_v1) : W2 m ρ c (Proc.devRef .tc b) = W1 m ρ c (Proc.devRef .tc b) := by
  unfold W2; exact Function.update_of_ne (StableHlo.devRef_ne_of_ne hb) ..

/-- Neither pass writes x or A: they end as launched. -/
theorem W2_main_arg0 (c : Dev nD) : W2 m ρ c (Proc.devRef .tc main_arg0) = m ((c : Thread nD τ).loc main_arg0) :=
  (W2_of_ne m ρ c main_arg0 (by decide)).trans ((W1_of_ne m ρ c main_arg0 (by decide)).trans rfl)
theorem W2_main_arg1 (c : Dev nD) : W2 m ρ c (Proc.devRef .tc main_arg1) = m ((c : Thread nD τ).loc main_arg1) :=
  (W2_of_ne m ρ c main_arg1 (by decide)).trans ((W1_of_ne m ρ c main_arg1 (by decide)).trans rfl)

/-- At the second pass's exit each of its arrays holds what the pass leaves, -/
theorem hF1 (c : Dev nD) (w : Fin cfg1.W) : (dat1 (V1 m ρ) c).arrAt w cfg1.N = V2 m ρ c (Pipeline.arrRef spec1 w) := by
  match w with
  | ⟨0, _⟩ => exact ((dat1 (V1 m ρ) c).arrAt_in 0 rfl _).trans ((A_eq1 (V1 m ρ) c 0).trans (W2_of_ne m ρ c main_arg1 (by decide)).symm)
  | ⟨1, _⟩ => exact ((dat1 (V1 m ρ) c).arrAt_in 1 rfl _).trans ((A_eq1 (V1 m ρ) c 1).trans (W2_of_ne m ρ c main_v0 (by decide)).symm)
  | ⟨2, _⟩ => exact (W2_main_v1 m ρ c).symm
/-- and every other array what it held at entry. -/
theorem hrest1 (c : Dev nD) : ∀ b, b ∉ Finset.univ.image (Pipeline.arrRef spec1) → V2 m ρ c b = V1 m ρ c b :=
  fun b hb => W2_of_ne m ρ c b fun e => hb (Finset.mem_image.mpr ⟨2, Finset.mem_univ _, e.symm⟩)

/-! ## The proof data family and the thread state -/

abbrev adm : (p : Fin 2) → (pcfgs (F := F) p).Adm := fun p => (cfgs p).toPCfg_adm
/-- Each pass's proof data at the contents its region is entered with. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the arrays through both passes: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The passes as segments -/

set_option backward.isDefEq.respectTransparency.types false in
/-- THE FIRST PASS over the thread state: entered from every array at launch contents, left with y written. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := split0 (V0 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := join0 (V0 m ρ) c (V1 m ρ c) ((dat0 (V0 m ρ) c).arrAt · cfg0.N)
      (((dat0 (V0 m ρ) c).arrAt_in 0 rfl _).trans ((A_eq0 (V0 m ρ) c 0).trans (W1_of_ne m ρ c main_arg1 (by decide)).symm))
      (((dat0 (V0 m ρ) c).arrAt_in 1 rfl _).trans ((A_eq0 (V0 m ρ) c 1).trans (W1_of_ne m ρ c main_arg0 (by decide)).symm))
      (((dat0 (V0 m ρ) c).arrAt_in 2 rfl _).trans ((A_eq0 (V0 m ρ) c 2).trans (W1_of_ne m ρ c main_arg0 (by decide)).symm))
      (W1_main_v0 m ρ c).symm (W1_of_ne m ρ c main_v1 (by decide))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- THE SECOND PASS over the thread state: entered with y written, left with the result written. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as the two passes, and the launch -/

abbrev segs : List (Pipeline.Seg (pcfgs (F := F)) adm (pdats m ρ) () defs₀ 𝒱₀ L lv) :=
  [ .region (reg0 m ρ), .region (reg1 m ρ) ]

theorem main_run (c : Dev nD) : main (F := F) c = Pipeline.Seg.run (segs m ρ) := (main_chain c).trans (by chain_rfl)

set_option backward.isDefEq.respectTransparency.types false in
/-- THE RUN: from any memory with zero counters every weakly fair execution of the program terminates without a fault,
    and in every final state each of the core's arrays holds its contents in `W2`: x and A as launched, y and the
    result at what the two passes' write-backs leave. -/
theorem run : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

end Cert.Kernel.Hand

end
-- ==== Proof.KernelIdealPass1.lean ====
/-
  First pass, y = A·x + x, one block of 400 rows per grid point: what each window's staging buffer holds when the
  body runs, what the body leaves in the output window's buffer, and the body's triple, at any contents `V` of the
  core's arrays on entry. The array x is read through two windows (whole, and 400 rows at a time), so the proof
  data hold it at two half shares.
-/
import proofs.«149631_g16604343566779_cont_sun_m_776_3_alg».proof.Proof.Gen.KernelIdeal.Launch
import proofs.«149631_g16604343566779_cont_sun_m_776_3_alg».proof.Proof.Gen.KernelIdeal.Skeleton
import proofs.«149631_g16604343566779_cont_sun_m_776_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The first pass: blocks -/

/-- Window `w`'s block at point `t`: the rows the point works on, read off the window's array as entered. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 400 rows of A at a point are in the staging buffer when the body runs, fetched at that point or kept. -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
/-- All of x likewise: fetched once, then kept. -/
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
/-- The point's 400 rows of x likewise. -/
theorem found0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-! ## The first pass: the body -/

abbrev rA : Rect S400x10000 := Rect.unit (s := S400x10000) ![0, 0] S400x10000.size inb_S400x10000_S400x10000_0_0
abbrev rX : Rect S10000x128 := Rect.unit (s := S10000x128) ![0, 0] S10000x128.size inb_S10000x128_S10000x128_0_0
abbrev rB : Rect S400x128 := Rect.unit (s := S400x128) ![0, 0] S400x128.size inb_S400x128_S400x128_0_0

/-- What the first pass leaves in its output buffer: the 400 rows of A times x, plus the 400 rows of x, stored whole. -/
def out0 (a : Vec F S400x10000 .f32) (xs : Vec F S10000x128 .f32) (xb : Vec F S400x128 .f32) : Vec F S400x128 .f32 :=
  View.canon [⟨rB, k0_pay1 (View.ld a rA) (View.ld xs rX) (View.ld xb rB)⟩]

/-- The one store covers the buffer. -/
theorem cover0 (p0 : Vec F S400x128 .f32) (y : S400x128.Idx) :
    ∃ pc ∈ ([⟨rB, p0⟩] : List (View.Piece (Elt F) S400x128 .f32)), y ∈ pc.1.set :=
  View.cover_of_tiled [⟨rB, p0⟩] S400x128.size (by rfl) y

set_option maxHeartbeats 1000000 in
/-- The body of the first pass on whole staging buffers: the three inputs are read and kept, the output buffer (read once,
    the value unused) ends at `out0` of the inputs. -/
theorem sound_kernel0 (c : Dev nD) (E : Set ℕ) (i : grid0.Coords)
    (arg1 : Memref sig .tc .vmem S400x10000 .f32) (harg1 : arg1.IsWhole) (arg2 : Memref sig .tc .vmem S10000x128 .f32) (harg2 : arg2.IsWhole)
    (arg3 : Memref sig .tc .vmem S400x128 .f32) (harg3 : arg3.IsWhole) (arg4 : Memref sig .tc .vmem S400x128 .f32) (harg4 : arg4.IsWhole)
    (a : Vec F S400x10000 .f32) (xs : Vec F S10000x128 .f32) (xb : Vec F S400x128 .f32) (K : PUnit → sProp 𝕄) :
    iprop(owns (c : Thread nD τ) arg1 fullShare a ∗ owns (c : Thread nD τ) arg2 fullShare xs ∗ owns (c : Thread nD τ) arg3 fullShare xb
        ∗ (∃ d, owns (c : Thread nD τ) arg4 fullShare d)
        ∗ (iprop(owns (c : Thread nD τ) arg1 fullShare a ∗ owns (c : Thread nD τ) arg2 fullShare xs ∗ owns (c : Thread nD τ) arg3 fullShare xb
            ∗ owns (c : Thread nD τ) arg4 fullShare (out0 a xs xb)) -∗ K ⟨⟩))
      ⊢ wp frame (wpE (defs₀ (F := F)) Variants.none c none) E (cc0__pass1_kernel i arg1 harg1 arg2 harg2 arg3 harg3 arg4 harg4) K := by
  simp only [cc0__pass1_kernel_eq_skeleton]; unfold cc0__pass1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-! ## The first pass: proof data -/

/-- The proof data of the first pass on core `c`: the arrays as entered; after the body each input buffer still at
    its block and the output buffer at `out0` of the three input blocks; the scoped rest and the generator register
    untouched; nothing owed. A is held whole; x, read through two windows, at one half share each. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => out0 (blk0 V c 0 t) (blk0 V c 1 t) (blk0 V c 2 t)
  Φ _ := Pipeline.ΦA spec0 c
  q w := match w with
    | ⟨0, _⟩ => fullShare
    | ⟨1, _⟩ => fullShare.left
    | ⟨2, _⟩ => fullShare.right
    | ⟨3, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) :
    (dat0 V c).after 3 t = out0 (blk0 V c 0 t) (blk0 V c 1 t) (blk0 V c 2 t) := by dsimp only [dat0]

theorem before0_0 (c : Dev nD) (t : Fin cfg0.N) (d) : (dat0 V c).before 0 t d = blk0 V c 0 t :=
  found0_0 V (dat0 V c) (A_eq0 V c 0) (after0_0 V c) t d
theorem before0_1 (c : Dev nD) (t : Fin cfg0.N) (d) : (dat0 V c).before 1 t d = blk0 V c 1 t :=
  found0_1 V (dat0 V c) (A_eq0 V c 1) (after0_1 V c) t d
theorem before0_2 (c : Dev nD) (t : Fin cfg0.N) (d) : (dat0 V c).before 2 t d = blk0 V c 2 t :=
  found0_2 V (dat0 V c) (A_eq0 V c 2) (after0_2 V c) t d

/-! ## The first pass: the body obligation -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the first pass, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdealPass2.lean ====
/-
  Second pass, out = A·y, one block of 400 rows per grid point: what each window's staging buffer holds when the body
  runs, what the body leaves in the output window's buffer, and the body's triple, at any contents `V` of the core's
  arrays on entry.
-/
import proofs.«149631_g16604343566779_cont_sun_m_776_3_alg».proof.Proof.Gen.KernelIdeal.Launch
import proofs.«149631_g16604343566779_cont_sun_m_776_3_alg».proof.Proof.Gen.KernelIdeal.Skeleton
import proofs.«149631_g16604343566779_cont_sun_m_776_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The second pass: blocks -/

/-- Window `w`'s block at point `t`, read off the window's array as entered. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The 400 rows of A at a point are in the staging buffer when the body runs, fetched at that point or kept. -/
theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
/-- All of y likewise: fetched once, then kept. -/
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## The second pass: the body -/

abbrev sA : Rect S400x10000 := Rect.unit (s := S400x10000) ![0, 0] S400x10000.size inb_S400x10000_S400x10000_0_0
abbrev sY : Rect S10000x128 := Rect.unit (s := S10000x128) ![0, 0] S10000x128.size inb_S10000x128_S10000x128_0_0
abbrev sB : Rect S400x128 := Rect.unit (s := S400x128) ![0, 0] S400x128.size inb_S400x128_S400x128_0_0

/-- What the second pass leaves in its output buffer: the 400 rows of A times y, stored whole. -/
def out1 (a : Vec F S400x10000 .f32) (ys : Vec F S10000x128 .f32) : Vec F S400x128 .f32 :=
  View.canon [⟨sB, k1_pay1 (View.ld a sA) (View.ld ys sY)⟩]

/-- The one store covers the buffer. -/
theorem cover1 (p0 : Vec F S400x128 .f32) (y : S400x128.Idx) :
    ∃ pc ∈ ([⟨sB, p0⟩] : List (View.Piece (Elt F) S400x128 .f32)), y ∈ pc.1.set :=
  View.cover_of_tiled [⟨sB, p0⟩] S400x128.size (by rfl) y

set_option maxHeartbeats 1000000 in
/-- The body of the second pass on whole staging buffers: the two inputs are read and kept, the output buffer (read once,
    the value unused) ends at `out1` of the inputs. -/
theorem sound_kernel1 (c : Dev nD) (E : Set ℕ) (i : grid1.Coords)
    (arg1 : Memref sig .tc .vmem S400x10000 .f32) (harg1 : arg1.IsWhole) (arg2 : Memref sig .tc .vmem S10000x128 .f32) (harg2 : arg2.IsWhole)
    (arg3 : Memref sig .tc .vmem S400x128 .f32) (harg3 : arg3.IsWhole)
    (a : Vec F S400x10000 .f32) (ys : Vec F S10000x128 .f32) (K : PUnit → sProp 𝕄) :
    iprop(owns (c : Thread nD τ) arg1 fullShare a ∗ owns (c : Thread nD τ) arg2 fullShare ys
        ∗ (∃ d, owns (c : Thread nD τ) arg3 fullShare d)
        ∗ (iprop(owns (c : Thread nD τ) arg1 fullShare a ∗ owns (c : Thread nD τ) arg2 fullShare ys
            ∗ owns (c : Thread nD τ) arg3 fullShare (out1 a ys)) -∗ K ⟨⟩))
      ⊢ wp frame (wpE (defs₀ (F := F)) Variants.none c none) E (cc1__pass2_kernel i arg1 harg1 arg2 harg2 arg3 harg3) K := by
  simp only [cc1__pass2_kernel_eq_skeleton]; unfold cc1__pass2_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-! ## The second pass: proof data -/

/-- The proof data of the second pass on core `c`: the arrays as entered; after the body each input buffer still at
    its block and the output buffer at `out1` of the two input blocks; the scoped rest and the generator register
    untouched; nothing owed; every array held whole. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => out1 (blk1 V c 0 t) (blk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) :
    (dat1 V c).after 2 t = out1 (blk1 V c 0 t) (blk1 V c 1 t) := by dsimp only [dat1]

theorem before1_0 (c : Dev nD) (t : Fin cfg1.N) (d) : (dat1 V c).before 0 t d = blk1 V c 0 t :=
  found1_0 V (dat1 V c) (A_eq1 V c 0) (after1_0 V c) t d
theorem before1_1 (c : Dev nD) (t : Fin cfg1.N) (d) : (dat1 V c).before 1 t d = blk1 V c 1 t :=
  found1_1 V (dat1 V c) (A_eq1 V c 1) (after1_1 V c) t d

/-! ## The second pass: the body obligation -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the second pass, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdealRun.lean ====
/-
  The whole program at either instance: the first pass writes y = A·x + x into its own array, the second pass
  writes A·y into the result. Each core's arrays are tracked from launch to return: at launch they hold the launch
  memory; after the first pass the array of y holds what that pass's write-backs leave and nothing else has changed;
  after the second pass the result array holds what its write-backs leave. The array x is read by two windows of the
  first pass, so on entry its full share is cut in two halves and on exit the halves, both still at x, are joined.
-/
import proofs.«149631_g16604343566779_cont_sun_m_776_3_alg».proof.Proof.Gen.KernelIdeal.Launch
import proofs.«149631_g16604343566779_cont_sun_m_776_3_alg».proof.Proof.Gen.KernelIdeal.Skeleton
import proofs.«149631_g16604343566779_cont_sun_m_776_3_alg».proof.Proof.Gen.KernelIdeal.Points
import proofs.«149631_g16604343566779_cont_sun_m_776_3_alg».proof.Proof.KernelIdealPass1
import proofs.«149631_g16604343566779_cont_sun_m_776_3_alg».proof.Proof.KernelIdealPass2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The first pass's arrays, one by one -/

section Shared

variable (V : (c : Dev nD) → (b : Ref sig .tc) → Buf (Elt F) ((c : Thread nD τ).loc b))

theorem share0_0 (c : Dev nD) : (dat0 V c).share 0 = fullShare := rfl
theorem share0_1 (c : Dev nD) : (dat0 V c).share 1 = fullShare.left := rfl
theorem share0_2 (c : Dev nD) : (dat0 V c).share 2 = fullShare.right := rfl
theorem share0_3 (c : Dev nD) : (dat0 V c).share 3 = fullShare := rfl

/-- The first pass's arrays one by one: A whole, x twice at half shares, y whole. -/
theorem arrays0_eq (c : Dev nD) (Fn : (w : Fin cfg0.W) → Buf (Elt F) (((cfg0.win w).arr.view.loc (c : Thread nD τ)))) :
    ((dat0 V c).arrays Fn : sProp 𝕄)
      = iprop((((c : Thread nD τ).loc main_arg1) ↦{fullShare} Fn 0) ∗ (((c : Thread nD τ).loc main_arg0) ↦{fullShare.left} Fn 1)
          ∗ (((c : Thread nD τ).loc main_arg0) ↦{fullShare.right} Fn 2) ∗ (((c : Thread nD τ).loc main_v0) ↦{fullShare} Fn 3)) := by
  unfold Dat.arrays
  rw [bigSep_W0, (arr_whole0 0).set_eq_univ, (arr_whole0 1).set_eq_univ, (arr_whole0 3).set_eq_univ,
    share0_0, share0_1, share0_2, share0_3]

/-- The three distinct buffers behind the first pass's four windows, one by one. -/
theorem arrBufs0_eq (c : Dev nD) (U : (b : Ref sig .tc) → Buf (Elt F) ((c : Thread nD τ).loc b)) :
    (Pipeline.arrBufs (Ix := Unit) (Name := ℕ) (U := UR sig nD τ) (Lvl := ℕ) spec0 c U : sProp 𝕄)
      = iprop((((c : Thread nD τ).loc main_arg1) ↦{fullShare} U main_arg1) ∗ (((c : Thread nD τ).loc main_arg0) ↦{fullShare} U main_arg0)
          ∗ (((c : Thread nD τ).loc main_v0) ↦{fullShare} U main_v0)) := by
  unfold Pipeline.arrBufs
  exact bigSep_eq_bigSepL_of_eq [main_arg1, main_arg0, main_v0] (by decide) (by decide) _

/-- ENTRY of the first pass: the core's arrays at `U` are the pass's arrays at the proof data's entry contents, x cut
    into its two half shares, and the one array the pass does not touch. -/
theorem split0 (c : Dev nD) :
    (unscopedBufs c (V c) : sProp 𝕄) ⊢ iprop((dat0 V c).arrays ((dat0 V c).arrAt · 0) ∗ Pipeline.unscopedRest spec0 c (V c)) := by
  have h : (unscopedBufs c (V c) : sProp 𝕄) = iprop((Pipeline.arrBufs spec0 c (V c) : sProp 𝕄) ∗ Pipeline.unscopedRest spec0 c (V c)) :=
    Pipeline.unscopedBufs_split₀ (Ix := Unit) (Name := ℕ) (U := UR sig nD τ) (Lvl := ℕ) cfgs 0 winFacts₀0.arr_unscoped c (V c)
  rw [h, arrBufs0_eq, arrays0_eq]
  iintro ⟨⟨HA, Hx, Hy⟩, Hr⟩
  isplitr [Hr]; swap; · iexact Hr
  ihave Hx' := (pointsTo_share (PosShare.mem_left_op_right fullShare)).1 $$ Hx
  icases Hx' with ⟨Hx1, Hx2⟩
  isplitl [HA]; · iexact HA
  isplitl [Hx1]; · iexact Hx1
  isplitl [Hx2]; · iexact Hx2
  iexact Hy

/-- EXIT of the first pass: its arrays at final contents `Fn` whose two readings of x agree, and the untouched array,
    are the core's arrays at any contents `U'` that has A, x and y at `Fn` and agrees with `V` on the untouched one. -/
theorem join0 (c : Dev nD) (U' : (b : Ref sig .tc) → Buf (Elt F) ((c : Thread nD τ).loc b))
    (Fn : (w : Fin cfg0.W) → Buf (Elt F) (((cfg0.win w).arr.view.loc (c : Thread nD τ))))
    (h0 : Fn 0 = U' main_arg1) (h1 : Fn 1 = U' main_arg0) (h2 : Fn 2 = U' main_arg0) (h3 : Fn 3 = U' main_v0)
    (hr : U' main_v1 = V c main_v1) :
    iprop((dat0 V c).arrays Fn ∗ Pipeline.unscopedRest spec0 c (V c)) ⊢ (unscopedBufs c U' : sProp 𝕄) := by
  have h : (unscopedBufs c U' : sProp 𝕄) = iprop((Pipeline.arrBufs spec0 c U' : sProp 𝕄) ∗ Pipeline.unscopedRest spec0 c U') :=
    Pipeline.unscopedBufs_split₀ (Ix := Unit) (Name := ℕ) (U := UR sig nD τ) (Lvl := ℕ) cfgs 0 winFacts₀0.arr_unscoped c U'
  rw [h, arrBufs0_eq, arrays0_eq, unscopedRest0_eq, unscopedRest0_eq, h0, h1, h2, h3, hr]
  iintro ⟨⟨HA, Hx1, Hx2, Hy⟩, Hr⟩
  isplitr [Hr]; swap; · iexact Hr
  isplitl [HA]; · iexact HA
  isplitr [Hy]; swap; · iexact Hy
  iapply (pointsTo_share (PosShare.mem_left_op_right fullShare)).2
  isplitl [Hx1]; · iexact Hx1
  iexact Hx2

end Shared

/-! ## The arrays from launch to return -/

variable (m : (ℓ : Loc nD τ sig) → Buf (Elt F) ℓ) (ρ : Dev nD → PrngReg)

/-- Core `c`'s arrays at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- The array y as the first pass's write-backs leave it. -/
def yArr (c : Dev nD) : Buf (Elt F) ((c : Thread nD τ).loc main_v0) := (dat0 (V0 m ρ) c).arrAt 3 cfg0.N

/-- After the first pass: y written, everything else as launched. -/
def W1 (c : Dev nD) : Valuation τ sig (Elt F) := Function.update (W0 m ρ c) (Proc.devRef .tc main_v0) (yArr m ρ c)
abbrev V1 : (c : Dev nD) → (b : Ref sig .tc) → Buf (Elt F) ((c : Thread nD τ).loc b) := fun c b => W1 m ρ c b

theorem W1_main_v0 (c : Dev nD) : W1 m ρ c (Proc.devRef .tc main_v0) = yArr m ρ c := by
  unfold W1; exact Function.update_self ..
theorem W1_of_ne (c : Dev nD) (b : Ref sig .tc) (hb : b ≠ main_v0) : W1 m ρ c (Proc.devRef .tc b) = W0 m ρ c (Proc.devRef .tc b) := by
  unfold W1; exact Function.update_of_ne (StableHlo.devRef_ne_of_ne hb) ..

/-- The result array as the second pass's write-backs leave it. -/
def oArr (c : Dev nD) : Buf (Elt F) ((c : Thread nD τ).loc main_v1) := (dat1 (V1 m ρ) c).arrAt 2 cfg1.N

/-- After the second pass: the result written, everything else as the first pass left it. -/
def W2 (c : Dev nD) : Valuation τ sig (Elt F) := Function.update (W1 m ρ c) (Proc.devRef .tc main_v1) (oArr m ρ c)
abbrev V2 : (c : Dev nD) → (b : Ref sig .tc) → Buf (Elt F) ((c : Thread nD τ).loc b) := fun c b => W2 m ρ c b

theorem W2_main_v1 (c : Dev nD) : W2 m ρ c (Proc.devRef .tc main_v1) = oArr m ρ c := by
  unfold W2; exact Function.update_self ..
theorem W2_of_ne (c : Dev nD) (b : Ref sig .tc) (hb : b ≠ main_v1) : W2 m ρ c (Proc.devRef .tc b) = W1 m ρ c (Proc.devRef .tc b) := by
  unfold W2; exact Function.update_of_ne (StableHlo.devRef_ne_of_ne hb) ..

/-- Neither pass writes x or A: they end as launched. -/
theorem W2_main_arg0 (c : Dev nD) : W2 m ρ c (Proc.devRef .tc main_arg0) = m ((c : Thread nD τ).loc main_arg0) :=
  (W2_of_ne m ρ c main_arg0 (by decide)).trans ((W1_of_ne m ρ c main_arg0 (by decide)).trans rfl)
theorem W2_main_arg1 (c : Dev nD) : W2 m ρ c (Proc.devRef .tc main_arg1) = m ((c : Thread nD τ).loc main_arg1) :=
  (W2_of_ne m ρ c main_arg1 (by decide)).trans ((W1_of_ne m ρ c main_arg1 (by decide)).trans rfl)

/-- At the second pass's exit each of its arrays holds what the pass leaves, -/
theorem hF1 (c : Dev nD) (w : Fin cfg1.W) : (dat1 (V1 m ρ) c).arrAt w cfg1.N = V2 m ρ c (Pipeline.arrRef spec1 w) := by
  match w with
  | ⟨0, _⟩ => exact ((dat1 (V1 m ρ) c).arrAt_in 0 rfl _).trans ((A_eq1 (V1 m ρ) c 0).trans (W2_of_ne m ρ c main_arg1 (by decide)).symm)
  | ⟨1, _⟩ => exact ((dat1 (V1 m ρ) c).arrAt_in 1 rfl _).trans ((A_eq1 (V1 m ρ) c 1).trans (W2_of_ne m ρ c main_v0 (by decide)).symm)
  | ⟨2, _⟩ => exact (W2_main_v1 m ρ c).symm
/-- and every other array what it held at entry. -/
theorem hrest1 (c : Dev nD) : ∀ b, b ∉ Finset.univ.image (Pipeline.arrRef spec1) → V2 m ρ c b = V1 m ρ c b :=
  fun b hb => W2_of_ne m ρ c b fun e => hb (Finset.mem_image.mpr ⟨2, Finset.mem_univ _, e.symm⟩)

/-! ## The proof data family and the thread state -/

abbrev adm : (p : Fin 2) → (pcfgs (F := F) p).Adm := fun p => (cfgs p).toPCfg_adm
/-- Each pass's proof data at the contents its region is entered with. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the arrays through both passes: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The passes as segments -/

set_option backward.isDefEq.respectTransparency.types false in
/-- THE FIRST PASS over the thread state: entered from every array at launch contents, left with y written. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := split0 (V0 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := join0 (V0 m ρ) c (V1 m ρ c) ((dat0 (V0 m ρ) c).arrAt · cfg0.N)
      (((dat0 (V0 m ρ) c).arrAt_in 0 rfl _).trans ((A_eq0 (V0 m ρ) c 0).trans (W1_of_ne m ρ c main_arg1 (by decide)).symm))
      (((dat0 (V0 m ρ) c).arrAt_in 1 rfl _).trans ((A_eq0 (V0 m ρ) c 1).trans (W1_of_ne m ρ c main_arg0 (by decide)).symm))
      (((dat0 (V0 m ρ) c).arrAt_in 2 rfl _).trans ((A_eq0 (V0 m ρ) c 2).trans (W1_of_ne m ρ c main_arg0 (by decide)).symm))
      (W1_main_v0 m ρ c).symm (W1_of_ne m ρ c main_v1 (by decide))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- THE SECOND PASS over the thread state: entered with y written, left with the result written. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as the two passes, and the launch -/

abbrev segs : List (Pipeline.Seg (pcfgs (F := F)) adm (pdats m ρ) () defs₀ 𝒱₀ L lv) :=
  [ .region (reg0 m ρ), .region (reg1 m ρ) ]

theorem main_run (c : Dev nD) : main (F := F) c = Pipeline.Seg.run (segs m ρ) := (main_chain c).trans (by chain_rfl)

set_option backward.isDefEq.respectTransparency.types false in
/-- THE RUN: from any memory with zero counters every weakly fair execution of the program terminates without a fault,
    and in every final state each of the core's arrays holds its contents in `W2`: x and A as launched, y and the
    result at what the two passes' write-backs leave. -/
theorem run : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

end Cert.KernelIdeal.Hand

end
-- ==== Proof.Spec.lean ====
/-
  The mathematics both programs compute, on the extended reals. With A a 10000 × 10000 matrix and x a 10000 × 128
  matrix, one aggregation step is the matrix product (A·x)[r, d] = Σ_k A[r, k] · x[k, d]; the hidden state is
  h = A·x + x and the result is A·h. Sums over the 10000 contraction indices are finite sums of extended reals, whose
  addition is commutative and associative, so no finiteness of the entries is needed for the two programs to agree.
-/
import Idealize.ShloMosaic.PureOps.Ideal
import Idealize.ShloMosaic.Lib.ValueIdx

noncomputable section

namespace Cert.Aggr

open Idealize.ShloMosaic

abbrev SX : Shape := ⟨2, ![10000, 128]⟩
abbrev SA : Shape := ⟨2, ![10000, 10000]⟩

/-- The entry of A in the row of `i` and column `k`. -/
abbrev aIdx (i : SX.Idx) (k : Fin 10000) : SA.Idx := fun a => match a with
  | ⟨0, _⟩ => ⟨(i 0).val, (i 0).isLt⟩
  | ⟨1, _⟩ => ⟨k.val, k.isLt⟩
/-- The entry of x in row `k` and the column of `i`. -/
abbrev xIdx (i : SX.Idx) (k : Fin 10000) : SX.Idx := fun a => match a with
  | ⟨0, _⟩ => ⟨k.val, k.isLt⟩
  | ⟨1, _⟩ => ⟨(i 1).val, (i 1).isLt⟩

/-- One aggregation step: the matrix product A·x, entry by entry. -/
def aggStep (A : SA.Idx → EReal) (x : SX.Idx → EReal) : SX.Idx → EReal :=
  fun i => ∑ k : Fin 10000, A (aIdx i k) * x (xIdx i k)

/-- The hidden state h = A·x + x. -/
def hiddenOf (x : SX.Idx → EReal) (A : SA.Idx → EReal) : SX.Idx → EReal :=
  fun i => aggStep A x i + x i

/-- The result A·(A·x + x). -/
def resultOf (x : SX.Idx → EReal) (A : SA.Idx → EReal) : SX.Idx → EReal :=
  aggStep A (hiddenOf x A)

end Cert.Aggr

end
-- ==== Proof.KernelIdealValue.lean ====
/-
  What the idealized kernel's two passes leave in their output arrays, as functions of the arrays they were entered
  with. A block product of 400 rows of A with a whole 10000 × 128 matrix, read at an entry, is the sum over the 10000
  contraction indices of the row entry of A times the column entry of the matrix; the blocks of 400 rows tile the
  output array, block t holding rows 400·t … 400·t + 399, so the output array ends at the whole product.
-/
import proofs.«149631_g16604343566779_cont_sun_m_776_3_alg».proof.Proof.KernelIdealRun
import proofs.«149631_g16604343566779_cont_sun_m_776_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen Cert.KernelIdeal.Hand Cert.Aggr

/-! ## The block product at an entry -/

theorem lhs_blk_0 (y : S400x128.Idx) (q : dot_S400x10000_S10000x128_S400x128_1_0_0_1_n_n.contr.Idx) :
    (dot_S400x10000_S10000x128_S400x128_1_0_0_1_n_n.lhsIdx y q 0).val = (y 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_blk_1 (y : S400x128.Idx) (q : dot_S400x10000_S10000x128_S400x128_1_0_0_1_n_n.contr.Idx) :
    (dot_S400x10000_S10000x128_S400x128_1_0_0_1_n_n.lhsIdx y q 1).val = (q ⟨0, by decide⟩).val :=
  dot_S400x10000_S10000x128_S400x128_1_0_0_1_n_n.lhsIdx_val_of_single rfl y q
theorem rhs_blk_0 (y : S400x128.Idx) (q : dot_S400x10000_S10000x128_S400x128_1_0_0_1_n_n.contr.Idx) :
    (dot_S400x10000_S10000x128_S400x128_1_0_0_1_n_n.rhsIdx y q 0).val = (q ⟨0, by decide⟩).val :=
  dot_S400x10000_S10000x128_S400x128_1_0_0_1_n_n.rhsIdx_val_of_single rfl y q
theorem rhs_blk_1 (y : S400x128.Idx) (q : dot_S400x10000_S10000x128_S400x128_1_0_0_1_n_n.contr.Idx) :
    (dot_S400x10000_S10000x128_S400x128_1_0_0_1_n_n.rhsIdx y q 1).val = (y 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- Row `y 0` of the 400-row block of A, column `k`. -/
abbrev rowOf (y : S400x128.Idx) (k : Fin 10000) : S400x10000.Idx := fun a => match a with
  | ⟨0, _⟩ => ⟨(y 0).val, (y 0).isLt⟩
  | ⟨1, _⟩ => ⟨k.val, k.isLt⟩
/-- Row `k` of the whole right operand, column `y 1`. -/
abbrev colOf (y : S400x128.Idx) (k : Fin 10000) : S10000x128.Idx := fun a => match a with
  | ⟨0, _⟩ => ⟨k.val, k.isLt⟩
  | ⟨1, _⟩ => ⟨(y 1).val, (y 1).isLt⟩

/-- The block product into a zero accumulator, at an entry: Σ_k a[r, k] · b[k, d]. -/
theorem blockProd_apply (a : FVec Ideal S400x10000 .f32) (b : FVec Ideal S10000x128 .f32) (y : S400x128.Idx) :
    matmul dot_S400x10000_S10000x128_S400x128_1_0_0_1_n_n none a b (constant S400x128 .f32 0x00000000#32) y
      = ∑ k : Fin 10000, a (rowOf y k) * b (colOf y k) := by
  refine (Ideal.matmul_constant_zero_apply dot_S400x10000_S10000x128_S400x128_1_0_0_1_n_n none a b y).trans ?_
  rw [← Equiv.sum_comp (ValueIdx.contrEquiv1 dot_S400x10000_S10000x128_S400x128_1_0_0_1_n_n 10000 rfl rfl).symm]
  refine Finset.sum_congr rfl fun k _ => ?_
  have hk := ValueIdx.contrEquiv1_symm_val dot_S400x10000_S10000x128_S400x128_1_0_0_1_n_n 10000 rfl rfl k
  have el : dot_S400x10000_S10000x128_S400x128_1_0_0_1_n_n.lhsIdx y ((ValueIdx.contrEquiv1 dot_S400x10000_S10000x128_S400x128_1_0_0_1_n_n 10000 rfl rfl).symm k) = rowOf y k := funext fun a => Fin.ext (by
    match a with
    | ⟨0, _⟩ => exact lhs_blk_0 _ _
    | ⟨1, _⟩ => exact (lhs_blk_1 _ _).trans hk)
  have er : dot_S400x10000_S10000x128_S400x128_1_0_0_1_n_n.rhsIdx y ((ValueIdx.contrEquiv1 dot_S400x10000_S10000x128_S400x128_1_0_0_1_n_n 10000 rfl rfl).symm k) = colOf y k := funext fun a => Fin.ext (by
    match a with
    | ⟨0, _⟩ => exact (rhs_blk_0 _ _).trans hk
    | ⟨1, _⟩ => exact rhs_blk_1 _ _)
  rw [el, er]

/-- The first pass's stored value at an entry: the block product plus the block of x. -/
theorem pay1_apply (a : FVec Ideal S400x10000 .f32) (xs : FVec Ideal S10000x128 .f32) (xb : FVec Ideal S400x128 .f32) (y : S400x128.Idx) :
    k0_pay1 (F := Ideal) a xs xb y = (∑ k : Fin 10000, a (rowOf y k) * xs (colOf y k)) + xb y := by
  unfold k0_pay1
  exact (ValueIdx.addf_apply _ _ y).trans (congrArg (· + xb y) (blockProd_apply a xs y))

/-- The second pass's stored value at an entry: the block product. -/
theorem pay2_apply (a : FVec Ideal S400x10000 .f32) (ys : FVec Ideal S10000x128 .f32) (y : S400x128.Idx) :
    k1_pay1 (F := Ideal) a ys y = ∑ k : Fin 10000, a (rowOf y k) * ys (colOf y k) := by
  unfold k1_pay1
  rw [shapeCast_self]
  exact blockProd_apply a ys y

/-! ## The first pass's array: y = A·x + x -/

section Arrays

variable (V : (c : Dev nD) → (b : Ref sig .tc) → Buf (Elt Ideal) ((c : Thread nD τ).loc b))

theorem hz : (![0, 0] : Fin 2 → Nat) = fun _ => 0 := funext fun a => by fin_cases a <;> rfl

/-- The arrays x and A as a pass finds them, as functions on the literal index types. -/
abbrev xOf (c : Dev nD) : SX.Idx → EReal := V c main_arg0
abbrev aOf (c : Dev nD) : SA.Idx → EReal := V c main_arg1

/-- The index maps of the first pass over its 25 points: the block of A and the block of x move with the output block
    along the rows; x whole sits at the origin; no block moves along the columns. -/
theorem idx_facts0 : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 24 :=
  (by decide +kernel : ∀ t : Fin grid0.N, _)

/-- Every block of 400 rows is some point's. -/
theorem idx_onto0 : ∀ q0 : Fin 25, ∃ t : Fin cfg0.N, win0_3.index t = ![q0.val, 0] :=
  (by decide +kernel : ∀ q0 : Fin 25, ∃ t : Fin grid0.N, win0_3.index t = ![q0.val, 0])

/-- WHAT POINT `t` OF THE FIRST PASS WRITES BACK is block `t` of A·x + x, of the arrays as the pass finds them. -/
theorem flushed0_eq (c : Dev nD) (t : Fin cfg0.N) :
    (dat0 V c).flushed 3 t = ((cfg0.win 3).blk t).view.read (Elt Ideal) (hiddenOf (xOf V c) (aOf V c)) := by
  show (cfg0.win 3).cut (grid0.coords t) ((dat0 V c).after 3 t) = _
  rw [after0_3]
  unfold out0
  rw [View.canon_unit_zero hz]
  simp only [View.ld_unit_zero (S := S400x10000) hz, View.ld_unit_zero (S := S10000x128) hz, View.ld_unit_zero (S := S400x128) hz]
  obtain ⟨e0, e1, e2, e3, e4, e5, e6, e7⟩ := idx_facts0 t
  funext j
  refine (pay1_apply _ _ _ j).trans ?_
  show (∑ k : Fin 10000, aOf V c (((cfg0.win 0).blk t).view.emb (rowOf j k)) * xOf V c (((cfg0.win 1).blk t).view.emb (colOf j k)))
      + xOf V c (((cfg0.win 2).blk t).view.emb j)
    = hiddenOf (xOf V c) (aOf V c) (((cfg0.win 3).blk t).view.emb j)
  unfold hiddenOf aggStep
  have hA : ∀ k : Fin 10000, ((cfg0.win 0).blk t).view.emb (rowOf j k) = aIdx (((cfg0.win 3).blk t).view.emb j) k := fun k => by
    funext a; apply Fin.ext
    match a with
    | ⟨0, _⟩ => show win0_0.index t (0 : Fin 2) * 400 + 1 * (j 0).val = win0_3.index t (0 : Fin 2) * 400 + 1 * (j 0).val; omega
    | ⟨1, _⟩ => show win0_0.index t (1 : Fin 2) * 10000 + 1 * k.val = k.val; omega
  have hX : ∀ k : Fin 10000, ((cfg0.win 1).blk t).view.emb (colOf j k) = xIdx (((cfg0.win 3).blk t).view.emb j) k := fun k => by
    funext a; apply Fin.ext
    match a with
    | ⟨0, _⟩ => show win0_1.index t (0 : Fin 2) * 10000 + 1 * k.val = k.val; omega
    | ⟨1, _⟩ => show win0_1.index t (1 : Fin 2) * 128 + 1 * (j 1).val = win0_3.index t (1 : Fin 2) * 128 + 1 * (j 1).val; omega
  have hB : ((cfg0.win 2).blk t).view.emb j = ((cfg0.win 3).blk t).view.emb j := by
    funext a; apply Fin.ext
    match a with
    | ⟨0, _⟩ => show win0_2.index t (0 : Fin 2) * 400 + 1 * (j 0).val = win0_3.index t (0 : Fin 2) * 400 + 1 * (j 0).val; omega
    | ⟨1, _⟩ => show win0_2.index t (1 : Fin 2) * 128 + 1 * (j 1).val = win0_3.index t (1 : Fin 2) * 128 + 1 * (j 1).val; omega
  rw [hB]
  exact congrArg (· + _) (Finset.sum_congr rfl fun k _ => by rw [hA k, hX k])

/-- An entry of the array y is in point `t`'s block iff each coordinate is in the block's range on its axis. -/
theorem mem_blk0 (t : Fin cfg0.N) (i : S10000x128.Idx) :
    i ∈ ((cfg0.win 3).blk t).view.set ↔ ∀ a : Fin 2, win0_3.index t a * S400x128.size a ≤ (i a).val ∧ (i a).val < win0_3.index t a * S400x128.size a + S400x128.size a := by
  show i ∈ ((View.whole main_v0).slice (win0_3.rect t)).set ↔ _
  rw [View.set_slice_whole, Rect.mem_set_unit]
  exact Iff.rfl

/-- The 25 blocks of 400 rows cover the array: row r is in block r / 400. -/
theorem cover_blk0 (i : S10000x128.Idx) : ∃ t : Fin cfg0.N, (cfg0.win 3).flush t = true ∧ i ∈ ((cfg0.win 3).blk t).view.set := by
  have hi0 : (i 0).val < 10000 := (i 0).isLt
  have hi1 : (i 1).val < 128 := (i 1).isLt
  obtain ⟨t, ht⟩ := idx_onto0 ⟨(i 0).val / 400, by omega⟩
  have q0 : win0_3.index t (0 : Fin 2) = (i 0).val / 400 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 400 ≤ (i 0).val ∧ (i 0).val < win0_3.index t (0 : Fin 2) * 400 + 400; omega
  | ⟨1, _⟩ => show win0_3.index t (1 : Fin 2) * 128 ≤ (i 1).val ∧ (i 1).val < win0_3.index t (1 : Fin 2) * 128 + 128; omega

/-- THE ARRAY y after the first pass is A·x + x, of the arrays as the pass finds them. -/
theorem final0 (c : Dev nD) : (dat0 V c).arrAt 3 cfg0.N = hiddenOf (xOf V c) (aOf V c) :=
  (dat0 V c).arrAt_eq_of_cover 3 _ (fun t _ => flushed0_eq V c t) cover_blk0

/-! ## The second pass's array: A·y -/

/-- The array y as the second pass finds it. -/
abbrev yOf (c : Dev nD) : SX.Idx → EReal := V c main_v0

theorem idx_facts1 : ∀ t : Fin cfg1.N, win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 24 :=
  (by decide +kernel : ∀ t : Fin grid1.N, _)

theorem idx_onto1 : ∀ q0 : Fin 25, ∃ t : Fin cfg1.N, win1_2.index t = ![q0.val, 0] :=
  (by decide +kernel : ∀ q0 : Fin 25, ∃ t : Fin grid1.N, win1_2.index t = ![q0.val, 0])

/-- WHAT POINT `t` OF THE SECOND PASS WRITES BACK is block `t` of A·y, of the arrays as the pass finds them. -/
theorem flushed1_eq (c : Dev nD) (t : Fin cfg1.N) :
    (dat1 V c).flushed 2 t = ((cfg1.win 2).blk t).view.read (Elt Ideal) (aggStep (aOf V c) (yOf V c)) := by
  show (cfg1.win 2).cut (grid1.coords t) ((dat1 V c).after 2 t) = _
  rw [after1_2]
  unfold out1
  rw [View.canon_unit_zero hz]
  simp only [View.ld_unit_zero (S := S400x10000) hz, View.ld_unit_zero (S := S10000x128) hz]
  obtain ⟨e0, e1, e2, e3, e4, e5⟩ := idx_facts1 t
  funext j
  refine (pay2_apply _ _ j).trans ?_
  show (∑ k : Fin 10000, aOf V c (((cfg1.win 0).blk t).view.emb (rowOf j k)) * yOf V c (((cfg1.win 1).blk t).view.emb (colOf j k)))
    = aggStep (aOf V c) (yOf V c) (((cfg1.win 2).blk t).view.emb j)
  unfold aggStep
  have hA : ∀ k : Fin 10000, ((cfg1.win 0).blk t).view.emb (rowOf j k) = aIdx (((cfg1.win 2).blk t).view.emb j) k := fun k => by
    funext a; apply Fin.ext
    match a with
    | ⟨0, _⟩ => show win1_0.index t (0 : Fin 2) * 400 + 1 * (j 0).val = win1_2.index t (0 : Fin 2) * 400 + 1 * (j 0).val; omega
    | ⟨1, _⟩ => show win1_0.index t (1 : Fin 2) * 10000 + 1 * k.val = k.val; omega
  have hY : ∀ k : Fin 10000, ((cfg1.win 1).blk t).view.emb (colOf j k) = xIdx (((cfg1.win 2).blk t).view.emb j) k := fun k => by
    funext a; apply Fin.ext
    match a with
    | ⟨0, _⟩ => show win1_1.index t (0 : Fin 2) * 10000 + 1 * k.val = k.val; omega
    | ⟨1, _⟩ => show win1_1.index t (1 : Fin 2) * 128 + 1 * (j 1).val = win1_2.index t (1 : Fin 2) * 128 + 1 * (j 1).val; omega
  exact Finset.sum_congr rfl fun k _ => by rw [hA k, hY k]

theorem mem_blk1 (t : Fin cfg1.N) (i : S10000x128.Idx) :
    i ∈ ((cfg1.win 2).blk t).view.set ↔ ∀ a : Fin 2, win1_2.index t a * S400x128.size a ≤ (i a).val ∧ (i a).val < win1_2.index t a * S400x128.size a + S400x128.size a := by
  show i ∈ ((View.whole main_v1).slice (win1_2.rect t)).set ↔ _
  rw [View.set_slice_whole, Rect.mem_set_unit]
  exact Iff.rfl

theorem cover_blk1 (i : S10000x128.Idx) : ∃ t : Fin cfg1.N, (cfg1.win 2).flush t = true ∧ i ∈ ((cfg1.win 2).blk t).view.set := by
  have hi0 : (i 0).val < 10000 := (i 0).isLt
  have hi1 : (i 1).val < 128 := (i 1).isLt
  obtain ⟨t, ht⟩ := idx_onto1 ⟨(i 0).val / 400, by omega⟩
  have q0 : win1_2.index t (0 : Fin 2) = (i 0).val / 400 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 400 ≤ (i 0).val ∧ (i 0).val < win1_2.index t (0 : Fin 2) * 400 + 400; omega
  | ⟨1, _⟩ => show win1_2.index t (1 : Fin 2) * 128 ≤ (i 1).val ∧ (i 1).val < win1_2.index t (1 : Fin 2) * 128 + 128; omega

/-- THE RESULT ARRAY after the second pass is A·y, of the arrays as the pass finds them. -/
theorem final1 (c : Dev nD) : (dat1 V c).arrAt 2 cfg1.N = aggStep (aOf V c) (yOf V c) :=
  (dat1 V c).arrAt_eq_of_cover 2 _ (fun t _ => flushed1_eq V c t) cover_blk1

end Arrays

/-! ## The program's result -/

/-- The result array at the end of the program is A·(A·x + x) of the launch contents of x and A. -/
theorem oArr_eq (m : (ℓ : Loc nD τ sig) → Buf (Elt Ideal) ℓ) (ρ : Dev nD → PrngReg) (c : Dev nD) :
    oArr m ρ c = resultOf (m ((c : Thread nD τ).loc main_arg0)) (m ((c : Thread nD τ).loc main_arg1)) := by
  unfold oArr
  rw [final1 (V1 m ρ) c]
  unfold resultOf
  have hy : yOf (V1 m ρ) c = hiddenOf (m ((c : Thread nD τ).loc main_arg0)) (m ((c : Thread nD τ).loc main_arg1)) :=
    (W1_main_v0 m ρ c).trans ((final0 (V0 m ρ) c).trans rfl)
  have ha : aOf (V1 m ρ) c = m ((c : Thread nD τ).loc main_arg1) := (W1_of_ne m ρ c main_arg1 (by decide)).trans rfl
  rw [hy, ha]

end Cert.KernelIdeal.Val

end
-- ==== Proof.RefValue.lean ====
/-
  The reference computes the specification: its three host operations are A·x, then + x, then A·(that), each read at
  an index — a `dot_general` over the one contracted axis is the sum over k of the left operand's row entry times the
  right operand's column entry, and the host addition is the addition of extended reals.
-/
import proofs.«149631_g16604343566779_cont_sun_m_776_3_alg».proof.Proof.Gen.ReferenceIdeal.Read
import proofs.«149631_g16604343566779_cont_sun_m_776_3_alg».proof.Proof.Spec

noncomputable section

namespace Cert.ReferenceIdeal.RefValue

open Cert.ReferenceIdeal Cert.ReferenceIdeal.Gen Cert.ReferenceIdeal.Read Idealize.ShloMosaic Cert.Aggr

/-- The reference's result, as its run states it, is A·(A·x + x). -/
theorem ref_eq_resultOf (x : (⟨S10000x128, .f32⟩ : BufTy).Contents (Elt Ideal)) (A : (⟨S10000x10000, .f32⟩ : BufTy).Contents (Elt Ideal)) :
    val_main_v2 (F := Ideal) x A = resultOf x A := by
  funext i
  rw [val_main_v2_apply]
  unfold resultOf aggStep
  refine Finset.sum_congr rfl fun k _ => ?_
  rw [val_main_v1_apply, val_main_v0_apply]
  rfl

end Cert.ReferenceIdeal.RefValue

end
-- ==== Proof.lean ====
/-
  The certificate's five claims for out = A·(A·x + x), computed by two streaming passes over blocks of 400 rows of A.
  Both the word-level kernel and its idealization run their two passes to the end and leave x and A untouched (one run
  theorem each, generic in the float family). At the ideal instance the first pass leaves y = A·x + x and the second
  leaves A·y in the result array, which is the reference's `dot_general`, add, `dot_general` read at an index: the
  same sums of the same products of extended reals, so the two results are equal entry by entry with no appeal to
  finiteness of the inputs. The idealization rewrote nothing, so `preserves` is trivial.
-/
import proofs.«149631_g16604343566779_cont_sun_m_776_3_alg».proof.Defs
import proofs.«149631_g16604343566779_cont_sun_m_776_3_alg».proof.Proof.Gen.Kernel
import proofs.«149631_g16604343566779_cont_sun_m_776_3_alg».proof.Proof.Gen.Kernel.Skeleton
import proofs.«149631_g16604343566779_cont_sun_m_776_3_alg».proof.Proof.Gen.Kernel.Launch
import proofs.«149631_g16604343566779_cont_sun_m_776_3_alg».proof.Proof.Gen.Kernel.Regions
import proofs.«149631_g16604343566779_cont_sun_m_776_3_alg».proof.Proof.Gen.Kernel.Points
import proofs.«149631_g16604343566779_cont_sun_m_776_3_alg».proof.Proof.Gen.KernelIdeal
import proofs.«149631_g16604343566779_cont_sun_m_776_3_alg».proof.Proof.Gen.KernelIdeal.Skeleton
import proofs.«149631_g16604343566779_cont_sun_m_776_3_alg».proof.Proof.Gen.KernelIdeal.Launch
import proofs.«149631_g16604343566779_cont_sun_m_776_3_alg».proof.Proof.Gen.KernelIdeal.Regions
import proofs.«149631_g16604343566779_cont_sun_m_776_3_alg».proof.Proof.Gen.KernelIdeal.Points
import proofs.«149631_g16604343566779_cont_sun_m_776_3_alg».proof.Proof.Gen.ReferenceIdeal
import proofs.«149631_g16604343566779_cont_sun_m_776_3_alg».proof.Proof.Gen.ReferenceIdeal.Run
import proofs.«149631_g16604343566779_cont_sun_m_776_3_alg».proof.Proof.Gen.ReferenceIdeal.Read
import proofs.«149631_g16604343566779_cont_sun_m_776_3_alg».proof.Proof.Gen.Pre_finite_inputs
import proofs.«149631_g16604343566779_cont_sun_m_776_3_alg».proof.Proof.KernelRun
import proofs.«149631_g16604343566779_cont_sun_m_776_3_alg».proof.Proof.KernelIdealRun
import proofs.«149631_g16604343566779_cont_sun_m_776_3_alg».proof.Proof.KernelIdealValue
import proofs.«149631_g16604343566779_cont_sun_m_776_3_alg».proof.Proof.RefValue
import Idealize.ShloMosaic.Adequacy
import Idealize.ShloMosaic.Init

noncomputable section

namespace Cert.Proof

open Idealize.ShloMosaic Idealize.SL.Sem

/-- The word-level kernel runs to the end and leaves x and A as launched. -/
theorem frame_k : Cert.frame_Kernel := fun m ρ _ =>
  (θ_run Cert.Kernel.defs _ _).mono (fun r h c =>
      ⟨(h c _ (Cert.Kernel.Hand.mem_uc Cert.Kernel.main_arg0 (by decide))).trans (Cert.Kernel.Hand.W2_main_arg0 m ρ c),
       (h c _ (Cert.Kernel.Hand.mem_uc Cert.Kernel.main_arg1 (by decide))).trans (Cert.Kernel.Hand.W2_main_arg1 m ρ c)⟩)
    (Cert.Kernel.Hand.run (F := Bits) m ρ)

/-- So does its idealization. -/
theorem frame_ki : Cert.frame_KernelIdeal := fun m ρ _ =>
  (θ_run Cert.KernelIdeal.defs _ _).mono (fun r h c =>
      ⟨(h c _ (Cert.KernelIdeal.Hand.mem_uc Cert.KernelIdeal.main_arg0 (by decide))).trans (Cert.KernelIdeal.Hand.W2_main_arg0 m ρ c),
       (h c _ (Cert.KernelIdeal.Hand.mem_uc Cert.KernelIdeal.main_arg1 (by decide))).trans (Cert.KernelIdeal.Hand.W2_main_arg1 m ρ c)⟩)
    (Cert.KernelIdeal.Hand.run (F := Ideal) m ρ)

/-- The reference's three host operations run to the end and leave x and A as launched. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with A·(A·x + x) of their (agreeing) arguments in their result arrays. -/
theorem algebraic : Cert.algebraic_KernelIdeal_ReferenceIdeal := by
  intro m ρ m' ρ' _ hagree
  refine ⟨fun c => Cert.Aggr.resultOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun r h c =>
      ⟨(h c _ (Cert.KernelIdeal.Hand.mem_uc Cert.KernelIdeal.main_v1 (by decide))).trans
          ((Cert.KernelIdeal.Hand.W2_main_v1 m ρ c).trans (Cert.KernelIdeal.Val.oArr_eq m ρ c)),
       (h c _ (Cert.KernelIdeal.Hand.mem_uc Cert.KernelIdeal.main_arg0 (by decide))).trans (Cert.KernelIdeal.Hand.W2_main_arg0 m ρ c),
       (h c _ (Cert.KernelIdeal.Hand.mem_uc Cert.KernelIdeal.main_arg1 (by decide))).trans (Cert.KernelIdeal.Hand.W2_main_arg1 m ρ c)⟩)
      (Cert.KernelIdeal.Hand.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v2_eq, Cert.ReferenceIdeal.RefValue.ref_eq_resultOf, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
